-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x12x32x128x128 : Shape := ⟨5, ![16, 12, 32, 128, 128]⟩
abbrev S_ : Shape := ⟨0, ![]⟩

class Facts : Prop where
  bcast_S_S16x12x32x128x128 : S_.BroadcastsInDim S16x12x32x128x128 (![] : Fin 0 → Fin S16x12x32x128x128.rank)
  reducesTo_S16x12x32x128x128_S_d0_1_2_3_4 : S16x12x32x128x128.ReducesTo [0, 1, 2, 3, 4] S_
  h_S_ : 0 < S_.numel

variable [Facts]

def fn {F : FTy → Type} [FloatOps F] (main_arg0 : FVec F S16x12x32x128x128 .f32) : IVec S_ 1 :=
  let main_v0 : FVec F S16x12x32x128x128 .f32 := Host.absf main_arg0
  let main_cst : FVec F S_ .f32 := constant S_ .f32 0x7F800000#32
  let main_v1 : FVec F S16x12x32x128x128 .f32 := broadcastInDim S16x12x32x128x128 ![] bcast_S_S16x12x32x128x128 main_cst
  let main_v2 : IVec S16x12x32x128x128 1 := cmpf .olt main_v0 main_v1
  let main_c : IVec S_ 1 := constantI S_ 1 1#1
  let main_v3 : IVec S_ 1 := (fun x v => Host.reduce IntOp.andi x v reducesTo_S16x12x32x128x128_S_d0_1_2_3_4 h_S_) main_v2 main_c
  main_v3
-- ==== Kernel.lean ====
abbrev S16x12x32x128x128 : Shape := ⟨5, ![16, 12, 32, 128, 128]⟩
abbrev S6144x128x128 : Shape := ⟨3, ![6144, 128, 128]⟩
abbrev S128x128x128 : Shape := ⟨3, ![128, 128, 128]⟩
abbrev S128x128 : Shape := ⟨2, ![128, 128]⟩
abbrev S128x128x1 : Shape := ⟨3, ![128, 128, 1]⟩
abbrev S128x1 : Shape := ⟨2, ![128, 1]⟩
abbrev S128x1x1 : Shape := ⟨3, ![128, 1, 1]⟩

abbrev nBuf : Space → Nat
  | .hbm => 4
  | .vmem => 4
  | .smem => 0
  | _ => 0

abbrev bufTy : (tb : Table) → Fin (tcTables nBuf tb) → BufTy
  | .hbm, ⟨0, _⟩ => ⟨S16x12x32x128x128, .f32⟩
  | .hbm, ⟨1, _⟩ => ⟨S6144x128x128, .f32⟩
  | .hbm, ⟨2, _⟩ => ⟨S6144x128x128, .f32⟩
  | .hbm, ⟨3, _⟩ => ⟨S16x12x32x128x128, .f32⟩
  | .local _ .vmem, ⟨0, _⟩ => ⟨S128x128x128, .f32⟩
  | .local _ .vmem, ⟨1, _⟩ => ⟨S128x128x128, .f32⟩
  | .local _ .vmem, ⟨2, _⟩ => ⟨S128x128x128, .f32⟩
  | .local _ .vmem, ⟨3, _⟩ => ⟨S128x128x128, .f32⟩
  | _, _ => ⟨S16x12x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x12x32x128x128_S6144x128x128 : S16x12x32x128x128.ShapeCasts S6144x128x128
  inb_S128x128x128_S128x128x128_0_0_0 : ∀ a, (![0, 0, 0] : Fin 3 → Nat) a + S128x128x128.size a ≤ S128x128x128.size a
  h_S128x128x128 : 0 < S128x128x128.numel
  shapeCasts_S128x128x128_S128x128x128 : S128x128x128.ShapeCasts S128x128x128
  reduces_S128x128x128_S128x128 : S128x128x128.Reduces [2] S128x128
  shapeCasts_S128x128_S128x128x1 : S128x128.ShapeCasts S128x128x1
  reduces_S128x128x1_S128x1 : S128x128x1.Reduces [1] S128x1
  shapeCasts_S128x1_S128x1x1 : S128x1.ShapeCasts S128x1x1
  broadcasts_S128x1x1_S128x128x128 : S128x1x1.Broadcasts S128x128x128
  shapeCasts_S6144x128x128_S16x12x32x128x128 : S6144x128x128.ShapeCasts S16x12x32x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x128.size a ≤ S6144x128x128.size a
  hwx0_0 : ∀ i : grid0.Coords, EltTy.bits .f32 = 32 ∨ (Rect.block (s := S6144x128x128) S128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x128.size a ≤ S6144x128x128.size a
  hwx0_1 : ∀ i : grid0.Coords, EltTy.bits .f32 = 32 ∨ (Rect.block (s := S6144x128x128) S128x128x128.size (cc0_transform_1 i) (hinb0_1 i)).WholeWords (EltTy.packing .f32)

variable [Facts₀]

abbrev win0_0 : Pipeline.Window sig grid0 :=
  Pipeline.Window.ofSpec (Memref.whole main_v0) S128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x12x32x128x128 : Shape := ⟨5, ![16, 12, 32, 128, 128]⟩
abbrev S_ : Shape := ⟨0, ![]⟩
abbrev S16x12x32 : Shape := ⟨3, ![16, 12, 32]⟩
abbrev S16x12x32x1x1 : Shape := ⟨5, ![16, 12, 32, 1, 1]⟩

abbrev nBuf : Space → Nat
  | .hbm => 15
  | .vmem => 0
  | .smem => 0
  | _ => 0

abbrev bufTy : (tb : Table) → Fin (tcTables nBuf tb) → BufTy
  | .hbm, ⟨0, _⟩ => ⟨S16x12x32x128x128, .f32⟩
  | .hbm, ⟨1, _⟩ => ⟨S_, .f32⟩
  | .hbm, ⟨2, _⟩ => ⟨S16x12x32, .f32⟩
  | .hbm, ⟨3, _⟩ => ⟨S16x12x32x1x1, .f32⟩
  | .hbm, ⟨4, _⟩ => ⟨S_, .f32⟩
  | .hbm, ⟨5, _⟩ => ⟨S16x12x32, .f32⟩
  | .hbm, ⟨6, _⟩ => ⟨S16x12x32x1x1, .f32⟩
  | .hbm, ⟨7, _⟩ => ⟨S16x12x32x128x128, .f32⟩
  | .hbm, ⟨8, _⟩ => ⟨S16x12x32x128x128, .f32⟩
  | .hbm, ⟨9, _⟩ => ⟨S16x12x32x1x1, .f32⟩
  | .hbm, ⟨10, _⟩ => ⟨S_, .f32⟩
  | .hbm, ⟨11, _⟩ => ⟨S16x12x32x1x1, .f32⟩
  | .hbm, ⟨12, _⟩ => ⟨S16x12x32x1x1, .f32⟩
  | .hbm, ⟨13, _⟩ => ⟨S16x12x32x128x128, .f32⟩
  | .hbm, ⟨14, _⟩ => ⟨S16x12x32x128x128, .f32⟩
  | _, _ => ⟨S16x12x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  reducesTo_S16x12x32x128x128_S16x12x32_d3_4 : S16x12x32x128x128.ReducesTo [3, 4] S16x12x32
  h_S_ : 0 < S_.numel
  bcast_S16x12x32_S16x12x32x1x1_0_1_2 : S16x12x32.BroadcastsInDim S16x12x32x1x1 (![0, 1, 2] : Fin 3 → Fin S16x12x32x1x1.rank)
  bcast_S16x12x32x1x1_S16x12x32x128x128_0_1_2_3_4 : S16x12x32x1x1.BroadcastsInDim S16x12x32x128x128 (![0, 1, 2, 3, 4] : Fin 5 → Fin S16x12x32x128x128.rank)
  bcast_S_S16x12x32x1x1 : S_.BroadcastsInDim S16x12x32x1x1 (![] : Fin 0 → Fin S16x12x32x1x1.rank)

variable [Facts₀]

class Facts : Prop extends Facts₀ where

variable [Facts]
-- ==== Proof.LibExtrema.lean ====
/-
  Extrema of a finite family of extended reals, read by their universal property.

  A minimum that a reduction takes by folding `min` from `+∞` over the source elements that land on one result index is
  the greatest lower bound of those elements: a number is below it exactly when it is below every one of them. Dually a
  maximum folded from `-∞` is the least upper bound. In that form the ORDER in which the elements are visited, and any
  grouping of them into partial minima (a minimum over the lanes first, then over the rows), never appears: two values with
  the same lower bounds are equal (`eq_of_forall_le_iff`), two with the same upper bounds likewise
  (`eq_of_forall_ge_iff`).

  Stated here for a kernel's `vector.multi_reduction <minimumf>` / `<maximumf>` and for a host
  `stablehlo.reduce` applying `minimum` / `maximum`, at the ideal (extended real) values, for any shapes and axes.
-/
import Idealize.ShloMosaic.PureOps.Ideal
import Idealize.ShloMosaic.PureOps.Ideal.Laws
import Idealize.ShloMosaic.PureOps.Reduce

noncomputable section

namespace Extrema

open Idealize.ShloMosaic

/-- The f32 pattern of `+∞` denotes the top of the extended reals. -/
theorem ofBits_posInf : Ideal.ofBits .f32 0x7F800000#32 = (⊤ : EReal) := by simp [Ideal.ofBits, Ideal.ieee]
/-- The f32 pattern of `-∞` denotes the bottom of the extended reals. -/
theorem ofBits_negInf : Ideal.ofBits .f32 0xFF800000#32 = (⊥ : EReal) := by simp [Ideal.ofBits, Ideal.ieee]

variable {φ : FTy} {s t : Shape} {axes : List (Fin s.rank)}

/-- A number is below a kernel's minimum reduction from `+∞`, at a result index `j`, iff it is below every source
    element whose index drops to `j`. -/
theorem le_multiReduction_min_iff (src : FVec Ideal s φ) (acc : BitVec φ.bits) (h : s.Reduces axes t)
    (hφ : FKind.Formats φ) (hacc : acc = FKind.minimumf.neutral φ hφ) (htop : Ideal.ofBits φ acc = (⊤ : EReal))
    (j : t.Idx) (c : EReal) :
    c ≤ multiReduction .minimumf axes t src acc h hφ hacc j ↔ ∀ i : s.Idx, h.drop i = j → c ≤ src i := by
  rw [multiReduction_minimumf_eq_fold]
  show c ≤ Finset.fold min (Ideal.ofBits φ acc) src _ ↔ _
  rw [Finset.le_fold_min, htop]
  simp only [le_top, true_and, Finset.mem_filter, Finset.mem_univ]

/-- A kernel's maximum reduction from `-∞`, at a result index `j`, is below a number iff every source element whose
    index drops to `j` is. -/
theorem multiReduction_max_le_iff (src : FVec Ideal s φ) (acc : BitVec φ.bits) (h : s.Reduces axes t)
    (hφ : FKind.Formats φ) (hacc : acc = FKind.maximumf.neutral φ hφ) (hbot : Ideal.ofBits φ acc = (⊥ : EReal))
    (j : t.Idx) (c : EReal) :
    multiReduction .maximumf axes t src acc h hφ hacc j ≤ c ↔ ∀ i : s.Idx, h.drop i = j → src i ≤ c := by
  rw [multiReduction_maximumf_eq_fold]
  show Finset.fold max (Ideal.ofBits φ acc) src _ ≤ c ↔ _
  rw [Finset.fold_max_le, hbot]
  simp only [bot_le, true_and, Finset.mem_filter, Finset.mem_univ]

/-- The same for a host reduction applying `minimum` from an initial value that is `+∞`. -/
theorem le_hostReduce_min_iff {u : Shape} (x : s.Idx → Ideal φ) (init : u.Idx → Ideal φ) (h : s.ReducesTo axes t)
    (hu : 0 < u.numel) (htop : init (Shape.Idx.first hu) = (⊤ : EReal)) (j : t.Idx) (c : EReal) :
    c ≤ Host.reduce FloatOps.minimumf x init h hu j ↔ ∀ i : s.Idx, h.drop i = j → c ≤ x i := by
  rw [Host.reduce_eq_fold]
  show c ≤ Finset.fold min (init (Shape.Idx.first hu)) x _ ↔ _
  rw [Finset.le_fold_min, htop]
  simp only [le_top, true_and, Finset.mem_filter, Finset.mem_univ]

/-- The same for a host reduction applying `maximum` from an initial value that is `-∞`. -/
theorem hostReduce_max_le_iff {u : Shape} (x : s.Idx → Ideal φ) (init : u.Idx → Ideal φ) (h : s.ReducesTo axes t)
    (hu : 0 < u.numel) (hbot : init (Shape.Idx.first hu) = (⊥ : EReal)) (j : t.Idx) (c : EReal) :
    Host.reduce FloatOps.maximumf x init h hu j ≤ c ↔ ∀ i : s.Idx, h.drop i = j → x i ≤ c := by
  rw [Host.reduce_eq_fold]
  show Finset.fold max (init (Shape.Idx.first hu)) x _ ≤ c ↔ _
  rw [Finset.fold_max_le, hbot]
  simp only [bot_le, true_and, Finset.mem_filter, Finset.mem_univ]

/-- Two source indices drop to one result index iff they agree, as naturals, on every kept axis. -/
theorem drop_eq_iff (h : s.Reduces axes t) (i : s.Idx) (j : t.Idx) :
    h.drop i = j ↔ ∀ b : Fin t.rank, (h.drop i b : Nat) = (j b : Nat) :=
  ⟨fun e b => by rw [e], fun e => funext fun b => Fin.ext (e b)⟩

/-- The same for a host reduction's drop. -/
theorem dropTo_eq_iff (h : s.ReducesTo axes t) (i : s.Idx) (j : t.Idx) :
    h.drop i = j ↔ ∀ b : Fin t.rank, (h.drop i b : Nat) = (j b : Nat) :=
  ⟨fun e b => by rw [e], fun e => funext fun b => Fin.ext (e b)⟩

end Extrema

end
-- ==== Proof.SlabSpec.lean ====
/-
  Min-max normalisation of 128 × 128 slabs: the specification, over the extended reals.

  A SLAB is a 128 × 128 matrix. Its normalisation sends an entry `x` to `(x - lo) / ((hi - lo) + ε)`, where `lo` and `hi` are
  the smallest and the largest entry of the slab and `ε` is the binary32 number nearest 1e-8. The same function is written
  here for two arrangements of the same data:

  * a STACK of `N` slabs, an array of shape [N, 128, 128] (`stackNorm`);
  * a BATCH of 16 · 12 · 32 slabs, an array of shape [16, 12, 32, 128, 128] (`batchNorm`).

  The batch is the stack of 6144 slabs with the three leading axes merged in row-major order: slab (a, b, c) of the batch is
  slab `(a · 12 + b) · 32 + c` of the stack (`flat`). Merging, normalising the stack and splitting again is normalising the
  batch (`split_stackNorm_merge`). And a run of 128 consecutive slabs of a stack, taken as a stack of its own, normalises
  to the same entries (`stackNorm_block`): a slab's extrema are its own, whatever stack holds it.
-/
import Idealize.ShloMosaic.PureOps.Ideal
import Idealize.ShloMosaic.Lib.ValueIdx
import Idealize.ShloMosaic.Lib.Pipeline.Value

noncomputable section

namespace SlabNorm

open Idealize.ShloMosaic Idealize.ShloMosaic.ValueIdx

/-- A stack of `N` slabs. -/
abbrev Stack (N : Nat) : Shape := ⟨3, ![N, 128, 128]⟩
/-- The batch of 16 · 12 · 32 slabs. -/
abbrev Batch : Shape := ⟨5, ![16, 12, 32, 128, 128]⟩

/-- The binary32 number nearest 1e-8, kept as its pattern: both programs carry this same word. -/
def eps : EReal := Ideal.ofBits .f32 0x322BCC77#32

/-- An entry `x` of a slab with extrema `lo` and `hi`, normalised. -/
def normalise (x lo hi : EReal) : EReal := Ideal.div (x - lo) ((hi - lo) + eps)

/-! ## A stack of slabs -/

/-- The smallest entry of slab `n` of a stack. -/
def slabMin {N : Nat} (Y : (Stack N).Idx → EReal) (n : Fin N) : EReal := ⨅ r : Fin 128, ⨅ q : Fin 128, Y (ix3 n r q)
/-- The largest entry of slab `n` of a stack. -/
def slabMax {N : Nat} (Y : (Stack N).Idx → EReal) (n : Fin N) : EReal := ⨆ r : Fin 128, ⨆ q : Fin 128, Y (ix3 n r q)

/-- Every slab of a stack normalised. -/
def stackNorm {N : Nat} (Y : (Stack N).Idx → EReal) : (Stack N).Idx → EReal :=
  fun j => normalise (Y j) (slabMin Y (j 0)) (slabMax Y (j 0))

theorem stackNorm_apply {N : Nat} (Y : (Stack N).Idx → EReal) (n : Fin N) (r q : Fin 128) :
    stackNorm Y (ix3 n r q) = normalise (Y (ix3 n r q)) (slabMin Y n) (slabMax Y n) := rfl

/-- A run of 128 consecutive slabs of a stack, starting at slab `off`, normalises as a stack of its own to the entries the
    whole stack normalises to: the extrema of slab `off + p` are taken over that slab alone. -/
theorem stackNorm_block {N : Nat} (Y : (Stack N).Idx → EReal) (blk : (Stack 128).Idx → EReal) (off : Nat) (hoff : off + 128 ≤ N)
    (hb : ∀ p r q : Fin 128, blk (ix3 p r q) = Y (ix3 ⟨off + p.val, by have := p.isLt; omega⟩ r q)) (p r q : Fin 128) :
    stackNorm blk (ix3 p r q) = stackNorm Y (ix3 ⟨off + p.val, by have := p.isLt; omega⟩ r q) := by
  rw [stackNorm_apply, stackNorm_apply, hb]
  have hlo : slabMin blk p = slabMin Y ⟨off + p.val, by have := p.isLt; omega⟩ := by
    unfold slabMin; simp only [hb]
  have hhi : slabMax blk p = slabMax Y ⟨off + p.val, by have := p.isLt; omega⟩ := by
    unfold slabMax; simp only [hb]
  rw [hlo, hhi]

/-! ## The batch -/

/-- The smallest entry of slab (a, b, c) of the batch. -/
def batchMin (X : Batch.Idx → EReal) (a : Fin 16) (b : Fin 12) (c : Fin 32) : EReal :=
  ⨅ r : Fin 128, ⨅ q : Fin 128, X (ix5 a b c r q)
/-- The largest entry of slab (a, b, c) of the batch. -/
def batchMax (X : Batch.Idx → EReal) (a : Fin 16) (b : Fin 12) (c : Fin 32) : EReal :=
  ⨆ r : Fin 128, ⨆ q : Fin 128, X (ix5 a b c r q)

/-- Every slab of the batch normalised. -/
def batchNorm (X : Batch.Idx → EReal) : Batch.Idx → EReal :=
  fun i => normalise (X i) (batchMin X (i 0) (i 1) (i 2)) (batchMax X (i 0) (i 1) (i 2))

theorem batchNorm_apply (X : Batch.Idx → EReal) (a : Fin 16) (b : Fin 12) (c : Fin 32) (r q : Fin 128) :
    batchNorm X (ix5 a b c r q) = normalise (X (ix5 a b c r q)) (batchMin X a b c) (batchMax X a b c) := rfl

/-! ## The batch is the stack of 6144 slabs -/

/-- Slab (a, b, c) of the batch is slab `(a · 12 + b) · 32 + c` of the stack. -/
def flat (a : Fin 16) (b : Fin 12) (c : Fin 32) : Fin 6144 :=
  ⟨(a.val * 12 + b.val) * 32 + c.val, by have := a.isLt; have := b.isLt; have := c.isLt; omega⟩

/-- The batch merged into the stack, read at an entry of slab `flat a b c`. -/
theorem merge_apply {α : Type} (X : Batch.Idx → α) (h : Batch.ShapeCasts (Stack 6144))
    (a : Fin 16) (b : Fin 12) (c : Fin 32) (r q : Fin 128) :
    shapeCast (Stack 6144) X h (ix3 (flat a b c) r q) = X (ix5 a b c r q) :=
  shapeCast_apply X h _ _ (by rw [Shape.rowMajor_val_five, Shape.rowMajor_val_three]; rfl)

/-- The stack split into the batch, read at an entry of slab (a, b, c). -/
theorem split_apply {α : Type} (Z : (Stack 6144).Idx → α) (h : (Stack 6144).ShapeCasts Batch)
    (a : Fin 16) (b : Fin 12) (c : Fin 32) (r q : Fin 128) :
    shapeCast Batch Z h (ix5 a b c r q) = Z (ix3 (flat a b c) r q) :=
  shapeCast_apply Z h _ _ (by rw [Shape.rowMajor_val_five, Shape.rowMajor_val_three]; rfl)

/-- Merge the batch into the stack, normalise every slab of the stack, split again: every slab of the batch normalised. -/
theorem split_stackNorm_merge (X : Batch.Idx → EReal) (h1 : Batch.ShapeCasts (Stack 6144)) (h2 : (Stack 6144).ShapeCasts Batch) :
    shapeCast Batch (stackNorm (shapeCast (Stack 6144) X h1)) h2 = batchNorm X := by
  funext i
  obtain ⟨a, b, c, r, q, rfl⟩ : ∃ (a : Fin 16) (b : Fin 12) (c : Fin 32) (r q : Fin 128), i = ix5 a b c r q :=
    ⟨i 0, i 1, i 2, i 3, i 4, eq_ix5 i⟩
  rw [split_apply, stackNorm_apply, batchNorm_apply, merge_apply]
  have hlo : slabMin (shapeCast (Stack 6144) X h1) (flat a b c) = batchMin X a b c := by
    unfold slabMin batchMin; simp only [merge_apply]
  have hhi : slabMax (shapeCast (Stack 6144) X h1) (flat a b c) = batchMax X a b c := by
    unfold slabMax batchMax; simp only [merge_apply]
  rw [hlo, hhi]

end SlabNorm

end
-- ==== Proof.BlockBody.lean ====
/-
  The body's arithmetic on one block of 128 slabs, as a function of the block.

  The body takes a block `x` of shape [128, 128, 128] (128 slabs) and computes, slab by slab,

      lo  = min over the rows of (min over the lanes of x)        hi = the same with max
      out = (x - lo) / ((hi - lo) + ε)

  with each minimum taken from `+∞` and each maximum from `-∞`, the partial results re-laid between the steps
  ([128,128] → [128,128,1], [128,1] → [128,1,1]) and broadcast back over the slab. A minimum of row minima is the minimum
  of the slab: a number is below every row minimum iff it is below every entry of every row. So `lo` and `hi` are the
  slab's extrema (`twoStepMin`, `twoStepMax`) and the body's value is the block normalised as a stack of 128 slabs
  (`body_eq_stackNorm`).
-/
import proofs.«168472_j51969104282122_1_alg».proof.Proof.LibExtrema
import proofs.«168472_j51969104282122_1_alg».proof.Proof.SlabSpec

noncomputable section

namespace SlabNorm

open Idealize.ShloMosaic Idealize.ShloMosaic.ValueIdx

/-- Row minima (or maxima) of a block: one number per slab and row. -/
abbrev Rows : Shape := ⟨2, ![128, 128]⟩
/-- The same with a trailing unit axis. -/
abbrev RowsCol : Shape := ⟨3, ![128, 128, 1]⟩
/-- One number per slab, as a column. -/
abbrev Col : Shape := ⟨2, ![128, 1]⟩
/-- One number per slab, with two trailing unit axes. -/
abbrev Col3 : Shape := ⟨3, ![128, 1, 1]⟩

section Drops

variable (h2 : (Stack 128).Reduces [2] Rows) (h1 : RowsCol.Reduces [1] Col)

/-- Dropping the lane of an entry of the block keeps its slab and row. -/
theorem drop_lane (p r q : Fin 128) : h2.drop (ix3 p r q) = ix2 p r :=
  (Extrema.drop_eq_iff h2 _ _).2 fun b => match b with
    | ⟨0, _⟩ => h2.drop_apply_val_of_eq (ix3 p r q) 0 0
    | ⟨1, _⟩ => h2.drop_apply_val_of_eq (ix3 p r q) 1 1

/-- An entry of the block whose lane-dropped index is (p, r) lies in slab p, row r. -/
theorem of_drop_lane (a b q : Fin 128) (p r : Fin 128) (e : h2.drop (ix3 a b q) = ix2 p r) : a = p ∧ b = r := by
  have e0 : (h2.drop (ix3 a b q) 0 : Nat) = ((ix3 a b q) 0 : Nat) := h2.drop_apply_val_of_eq (ix3 a b q) 0 0
  have e1 : (h2.drop (ix3 a b q) 1 : Nat) = ((ix3 a b q) 1 : Nat) := h2.drop_apply_val_of_eq (ix3 a b q) 1 1
  rw [e] at e0 e1
  exact ⟨Fin.ext e0.symm, Fin.ext e1.symm⟩

/-- Dropping the row of a row-extremum keeps its slab. -/
theorem drop_row (p r : Fin 128) (z z' : Fin 1) : h1.drop (ix3 p r z) = ix2 p z' :=
  (Extrema.drop_eq_iff h1 _ _).2 fun b => match b with
    | ⟨0, _⟩ => h1.drop_apply_val_of_eq (ix3 p r z) 0 0
    | ⟨1, _⟩ => (h1.drop_apply_val_of_eq (ix3 p r z) 1 2).trans (by
        show z.val = z'.val
        have := z.isLt; have := z'.isLt; omega)

/-- A row-extremum whose row-dropped index is slab p is one of slab p's. -/
theorem of_drop_row (a b : Fin 128) (z z' : Fin 1) (p : Fin 128) (e : h1.drop (ix3 a b z) = ix2 p z') : a = p := by
  have e0 : (h1.drop (ix3 a b z) 0 : Nat) = ((ix3 a b z) 0 : Nat) := h1.drop_apply_val_of_eq (ix3 a b z) 0 0
  rw [e] at e0
  exact Fin.ext e0.symm

end Drops

/-- Row extrema re-laid with a trailing unit axis, read at (p, r, 0). -/
theorem rowsCol_apply {α : Type} (v : Rows.Idx → α) (hc : Rows.ShapeCasts RowsCol) (p r : Fin 128) (z : Fin 1) :
    shapeCast RowsCol v hc (ix3 p r z) = v (ix2 p r) :=
  shapeCast_apply v hc _ _ (by
    rw [Shape.rowMajor_val_two, Shape.rowMajor_val_three]
    show p.val * 128 + r.val = (p.val * 128 + r.val) * 1 + z.val
    have := z.isLt; omega)

/-- Slab extrema re-laid with two trailing unit axes, read at (p, 0, 0). -/
theorem col3_apply {α : Type} (v : Col.Idx → α) (hc : Col.ShapeCasts Col3) (p : Fin 128) (z z' z'' : Fin 1) :
    shapeCast Col3 v hc (ix3 p z z') = v (ix2 p z'') :=
  shapeCast_apply v hc _ _ (by
    rw [Shape.rowMajor_val_two, Shape.rowMajor_val_three]
    show p.val * 1 + z''.val = (p.val * 1 + z.val) * 1 + z'.val
    have := z.isLt; have := z'.isLt; have := z''.isLt; omega)

/-- THE MINIMUM OF ROW MINIMA IS THE SLAB'S MINIMUM. -/
theorem twoStepMin (x : (Stack 128).Idx → EReal) (h2 : (Stack 128).Reduces [2] Rows) (hc : Rows.ShapeCasts RowsCol)
    (h1 : RowsCol.Reduces [1] Col) (p : Fin 128) (z : Fin 1) :
    multiReduction (F := Ideal) .minimumf [1] Col
        (shapeCast RowsCol (multiReduction (F := Ideal) .minimumf [2] Rows x 0x7F800000#32 h2 (.inl rfl) rfl) hc)
        0x7F800000#32 h1 (.inl rfl) rfl (ix2 p z)
      = slabMin x p := by
  refine eq_of_forall_le_iff fun c => ?_
  refine (Extrema.le_multiReduction_min_iff _ _ h1 _ _ Extrema.ofBits_posInf (ix2 p z) c).trans ?_
  unfold slabMin
  simp only [le_iInf_iff]
  constructor
  · intro H r q
    have h := H (ix3 p r (0 : Fin 1)) (drop_row h1 p r 0 z)
    rw [rowsCol_apply] at h
    exact (Extrema.le_multiReduction_min_iff _ _ h2 _ _ Extrema.ofBits_posInf (ix2 p r) c).1 h (ix3 p r q) (drop_lane h2 p r q)
  · intro H i hi
    obtain ⟨a, b, z', rfl⟩ : ∃ (a b : Fin 128) (z' : Fin 1), i = ix3 a b z' := ⟨i 0, i 1, i 2, eq_ix3 i⟩
    obtain rfl := of_drop_row h1 a b z' z p hi
    rw [rowsCol_apply]
    refine (Extrema.le_multiReduction_min_iff _ _ h2 _ _ Extrema.ofBits_posInf (ix2 a b) c).2 fun i' hi' => ?_
    obtain ⟨a', b', q', rfl⟩ : ∃ (a' b' q' : Fin 128), i' = ix3 a' b' q' := ⟨i' 0, i' 1, i' 2, eq_ix3 i'⟩
    obtain ⟨rfl, rfl⟩ := of_drop_lane h2 a' b' q' a b hi'
    exact H b' q'

/-- THE MAXIMUM OF ROW MAXIMA IS THE SLAB'S MAXIMUM. -/
theorem twoStepMax (x : (Stack 128).Idx → EReal) (h2 : (Stack 128).Reduces [2] Rows) (hc : Rows.ShapeCasts RowsCol)
    (h1 : RowsCol.Reduces [1] Col) (p : Fin 128) (z : Fin 1) :
    multiReduction (F := Ideal) .maximumf [1] Col
        (shapeCast RowsCol (multiReduction (F := Ideal) .maximumf [2] Rows x 0xFF800000#32 h2 (.inl rfl) rfl) hc)
        0xFF800000#32 h1 (.inl rfl) rfl (ix2 p z)
      = slabMax x p := by
  refine eq_of_forall_ge_iff fun c => ?_
  refine (Extrema.multiReduction_max_le_iff _ _ h1 _ _ Extrema.ofBits_negInf (ix2 p z) c).trans ?_
  unfold slabMax
  simp only [iSup_le_iff]
  constructor
  · intro H r q
    have h := H (ix3 p r (0 : Fin 1)) (drop_row h1 p r 0 z)
    rw [rowsCol_apply] at h
    exact (Extrema.multiReduction_max_le_iff _ _ h2 _ _ Extrema.ofBits_negInf (ix2 p r) c).1 h (ix3 p r q) (drop_lane h2 p r q)
  · intro H i hi
    obtain ⟨a, b, z', rfl⟩ : ∃ (a b : Fin 128) (z' : Fin 1), i = ix3 a b z' := ⟨i 0, i 1, i 2, eq_ix3 i⟩
    obtain rfl := of_drop_row h1 a b z' z p hi
    rw [rowsCol_apply]
    refine (Extrema.multiReduction_max_le_iff _ _ h2 _ _ Extrema.ofBits_negInf (ix2 a b) c).2 fun i' hi' => ?_
    obtain ⟨a', b', q', rfl⟩ : ∃ (a' b' q' : Fin 128), i' = ix3 a' b' q' := ⟨i' 0, i' 1, i' 2, eq_ix3 i'⟩
    obtain ⟨rfl, rfl⟩ := of_drop_lane h2 a' b' q' a b hi'
    exact H b' q'

/-- One number per slab broadcast over the block, read at an entry of slab p: that slab's number. -/
theorem bcast_apply {α : Type} (v : Col3.Idx → α) (hB : Col3.Broadcasts (Stack 128)) (p r q : Fin 128) :
    broadcastTo (Stack 128) v hB (ix3 p r q) = v (ix3 p (0 : Fin 1) (0 : Fin 1)) :=
  broadcastTo_apply v hB (ix3 p r q) (ix3 p (0 : Fin 1) (0 : Fin 1)) (fun a => match a with
    | ⟨0, _⟩ => by show p.val = if (128 : Nat) = 1 then 0 else p.val; rw [if_neg (by decide)]
    | ⟨1, _⟩ => by show 0 = if (1 : Nat) = 1 then 0 else r.val; rw [if_pos rfl]
    | ⟨2, _⟩ => by show 0 = if (1 : Nat) = 1 then 0 else q.val; rw [if_pos rfl])

/-- THE BODY'S VALUE: the block normalised as a stack of 128 slabs. -/
theorem body_eq_stackNorm (x : (Stack 128).Idx → EReal) (hself : (Stack 128).ShapeCasts (Stack 128))
    (h2 : (Stack 128).Reduces [2] Rows) (hc : Rows.ShapeCasts RowsCol) (h1 : RowsCol.Reduces [1] Col)
    (hc' : Col.ShapeCasts Col3) (hB : Col3.Broadcasts (Stack 128)) :
    divf (F := Ideal) (φ := .f32)
        (subf (shapeCast (Stack 128) x hself)
          (broadcastTo (Stack 128)
            (shapeCast Col3 (multiReduction (F := Ideal) .minimumf [1] Col
              (shapeCast RowsCol (multiReduction (F := Ideal) .minimumf [2] Rows (shapeCast (Stack 128) x hself) 0x7F800000#32 h2 (.inl rfl) rfl) hc)
              0x7F800000#32 h1 (.inl rfl) rfl) hc') hB))
        (broadcastTo (Stack 128)
          (addf
            (subf
              (shapeCast Col3 (multiReduction (F := Ideal) .maximumf [1] Col
                (shapeCast RowsCol (multiReduction (F := Ideal) .maximumf [2] Rows (shapeCast (Stack 128) x hself) 0xFF800000#32 h2 (.inl rfl) rfl) hc)
                0xFF800000#32 h1 (.inl rfl) rfl) hc')
              (shapeCast Col3 (multiReduction (F := Ideal) .minimumf [1] Col
                (shapeCast RowsCol (multiReduction (F := Ideal) .minimumf [2] Rows (shapeCast (Stack 128) x hself) 0x7F800000#32 h2 (.inl rfl) rfl) hc)
                0x7F800000#32 h1 (.inl rfl) rfl) hc'))
            (broadcast Col3 (Scalar.ofBits (F := Ideal) .f32 0x322BCC77#32))) hB)
      = stackNorm x := by
  funext j
  obtain ⟨p, r, q, rfl⟩ : ∃ (p r q : Fin 128), j = ix3 p r q := ⟨j 0, j 1, j 2, eq_ix3 j⟩
  rw [shapeCast_self, stackNorm_apply, divf_apply, subf_apply, bcast_apply, bcast_apply, addf_apply, subf_apply,
    col3_apply _ hc' p 0 0 0, col3_apply _ hc' p 0 0 0, twoStepMin, twoStepMax]
  rfl

end SlabNorm

end
-- ==== Proof.KernelValue.lean ====
/-
  The kernel's result, read off its run: every slab of the batch normalised.

  The program merges the batch into the stack of 6144 slabs, runs the body on 48 blocks of 128 consecutive slabs each, and
  splits the stack back into the batch.

  * The body's value on a block is the block normalised as a stack of its own (`pay_eq`).
  * Block `t` of the input window is slabs `128·t … 128·t + 127` of the merged stack, and block `t` of the output window sits at
    the same slabs; a slab's extrema are its own, so what point `t` writes back is block `t` of the WHOLE stack normalised
    (`flushed_eq`).
  * Slab `n` is in block `n / 128`, so the 48 blocks cover the output array, which therefore ends as the merged stack
    normalised (`final`).
  * The merged stack is the batch re-laid (`V_main_v0`), the result is the output array re-laid back (`result_eq`), and merging,
    normalising and splitting is normalising the batch.
-/
import proofs.«168472_j51969104282122_1_alg».proof.Proof.Gen.KernelIdeal.Frame
import proofs.«168472_j51969104282122_1_alg».proof.Proof.BlockBody
import Idealize.ShloMosaic.Lib.Pipeline.Value
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem SlabNorm
open Idealize.ShloMosaic.Pipeline (Dat Cfg Window)

variable (m : (ℓ : Loc nD τ sig) → Buf (Elt Ideal) ℓ) (ρ : Dev nD → PrngReg)

/-- The body's payload on a block is the block normalised as a stack of 128 slabs. -/
theorem pay_eq (x0 : Vec Ideal S128x128x128 .f32) : k0_pay1 (F := Ideal) x0 = stackNorm x0 := by
  unfold k0_pay1
  exact body_eq_stackNorm x0 _ _ _ _ _ _

theorem hz : (![0, 0, 0] : Fin 3 → Nat) = fun _ => 0 := funext fun a => by fin_cases a <;> rfl

/-- Both windows' block at point `t` is block `t` along the slab axis and the whole of the other two. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

theorem point_lt (t : Fin cfg0.N) : t.val < 48 := lt_of_lt_of_eq t.isLt N_0

/-- The merged stack: the input window's array as the region finds it. -/
abbrev stack (c : Dev nD) : (Stack 6144).Idx → EReal := V m c main_v0

/-- Entry (p, r, q) of the input block at point `t` is entry (128·t + p, r, q) of the merged stack. -/
theorem iblk_apply (c : Dev nD) (t : Fin cfg0.N) (p r q : Fin 128) :
    iblk m c 0 t (ix3 p r q) = stack m c (ix3 ⟨t.val * 128 + p.val, by have := point_lt t; have := p.isLt; omega⟩ r q) := by
  obtain ⟨e0, e1, e2, e3, e4, e5⟩ := idx_facts t
  show V m c main_v0 (((cfg0.win 0).blk t).view.emb (ix3 p r q)) = _
  refine congrArg (V m c main_v0) (funext fun a => Fin.ext ?_)
  match a with
  | ⟨0, _⟩ => show win0_0.index t (0 : Fin 3) * 128 + 1 * p.val = t.val * 128 + p.val; omega
  | ⟨1, _⟩ => show win0_0.index t (1 : Fin 3) * 128 + 1 * r.val = r.val; omega
  | ⟨2, _⟩ => show win0_0.index t (2 : Fin 3) * 128 + 1 * q.val = q.val; omega

/-- Entry (p, r, q) of the output block at point `t` sits at (128·t + p, r, q) of the output array. -/
theorem oblk_emb (t : Fin cfg0.N) (p r q : Fin 128) :
    ((cfg0.win 1).blk t).view.emb (ix3 p r q)
      = ix3 (⟨t.val * 128 + p.val, by have := point_lt t; have := p.isLt; omega⟩ : Fin 6144) r q := by
  obtain ⟨e0, e1, e2, e3, e4, e5⟩ := idx_facts t
  refine funext fun a => Fin.ext ?_
  match a with
  | ⟨0, _⟩ => show win0_1.index t (0 : Fin 3) * 128 + 1 * p.val = t.val * 128 + p.val; omega
  | ⟨1, _⟩ => show win0_1.index t (1 : Fin 3) * 128 + 1 * r.val = r.val; omega
  | ⟨2, _⟩ => show win0_1.index t (2 : Fin 3) * 128 + 1 * q.val = q.val; omega

/-- WHAT POINT `t` WRITES BACK is block `t` of the merged stack normalised. -/
theorem flushed_eq (c : Dev nD) (t : Fin cfg0.N) :
    (dats m 0 c).flushed 1 t = ((cfg0.win 1).blk t).view.read (Elt Ideal) (stackNorm (stack m c)) := by
  show (cfg0.win 1).cut (grid0.coords t) ((dats m 0 c).after 1 t) = _
  rw [after0_1]
  unfold out0_1
  rw [View.canon_unit_zero hz]
  simp only [View.ld_unit_zero (S := S128x128x128) hz]
  rw [pay_eq]
  funext y
  obtain ⟨p, r, q, rfl⟩ : ∃ (p r q : Fin 128), y = ix3 p r q := ⟨y 0, y 1, y 2, eq_ix3 y⟩
  show stackNorm (iblk m c 0 t) (ix3 p r q) = stackNorm (stack m c) (((cfg0.win 1).blk t).view.emb (ix3 p r q))
  rw [oblk_emb]
  exact stackNorm_block (stack m c) (iblk m c 0 t) (t.val * 128) (by have := point_lt t; omega)
    (fun p r q => iblk_apply m c t p r q) p r q

/-- An index of the output array is in point `t`'s block iff each coordinate is in the block's range on its axis. -/
theorem mem_blk (t : Fin cfg0.N) (i : S6144x128x128.Idx) :
    i ∈ ((cfg0.win 1).blk t).view.set ↔ ∀ a : Fin 3, win0_1.index t a * S128x128x128.size a ≤ (i a).val
      ∧ (i a).val < win0_1.index t a * S128x128x128.size a + S128x128x128.size a := by
  show i ∈ ((View.whole main_v1).slice (win0_1.rect t)).set ↔ _
  rw [View.set_slice_whole, Rect.mem_set_unit]
  exact Iff.rfl

/-- Slab `n` is in block `n / 128`: the 48 blocks cover the output array. -/
theorem cover (i : S6144x128x128.Idx) :
    ∃ t : Fin cfg0.N, (cfg0.win 1).flush t = true ∧ i ∈ ((cfg0.win 1).blk t).view.set := by
  have hi0 : (i 0).val < 6144 := (i 0).isLt
  have hi1 : (i 1).val < 128 := (i 1).isLt
  have hi2 : (i 2).val < 128 := (i 2).isLt
  have hN : (i 0).val / 128 < cfg0.N := lt_of_lt_of_eq (by omega : (i 0).val / 128 < 48) N_0.symm
  obtain ⟨e0, e1, e2, e3, e4, e5⟩ := idx_facts ⟨(i 0).val / 128, hN⟩
  refine ⟨⟨(i 0).val / 128, hN⟩, flush0_1 _, ?_⟩
  rw [mem_blk]
  intro a
  match a with
  | ⟨0, _⟩ =>
    show win0_1.index ⟨(i 0).val / 128, hN⟩ (0 : Fin 3) * 128 ≤ (i 0).val
      ∧ (i 0).val < win0_1.index ⟨(i 0).val / 128, hN⟩ (0 : Fin 3) * 128 + 128
    rw [e3]; show (i 0).val / 128 * 128 ≤ (i 0).val ∧ (i 0).val < (i 0).val / 128 * 128 + 128; omega
  | ⟨1, _⟩ =>
    show win0_1.index ⟨(i 0).val / 128, hN⟩ (1 : Fin 3) * 128 ≤ (i 1).val
      ∧ (i 1).val < win0_1.index ⟨(i 0).val / 128, hN⟩ (1 : Fin 3) * 128 + 128
    omega
  | ⟨2, _⟩ =>
    show win0_1.index ⟨(i 0).val / 128, hN⟩ (2 : Fin 3) * 128 ≤ (i 2).val
      ∧ (i 2).val < win0_1.index ⟨(i 0).val / 128, hN⟩ (2 : Fin 3) * 128 + 128
    omega

/-- THE OUTPUT ARRAY after the run: the merged stack normalised. -/
theorem final (c : Dev nD) : (dats m 0 c).arrAt 1 cfg0.N = stackNorm (stack m c) :=
  (dats m 0 c).arrAt_eq_of_cover 1 (stackNorm (stack m c)) (fun t _ => flushed_eq m c t) cover

/-- The merged stack is the batch re-laid: the one host operation before the region. -/
theorem V_main_v0 (c : Dev nD) :
    stack m c = shapeCast S6144x128x128 (m ((c : Thread nD τ).loc main_arg0)) shapeCasts_S16x12x32x128x128_S6144x128x128 := by
  show StableHlo.after hostOps0 (fun b => m (c, b)) (Proc.devRef .tc main_v0) = _
  after_results
  rfl

/-- THE RESULT: the output array re-laid into the batch is every slab of the batch normalised. -/
theorem result_eq (c : Dev nD) :
    Pipeline.afterTail₀ cfgs (dats m) 0 (V0 m) [hostOps1] c main_v2 = batchNorm (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = stackNorm (stack m c) :=
    (Pipeline.withArrays_arr spec0 launch0.win.arr_inj c _ _ 1).trans (final m c)
  show shapeCast S16x12x32x128x128
      (Pipeline.withArrays (cfgs 0).spec c (V0 m c) (fun w => (dats m 0 c).arrAt w (cfgs 0).N) (Proc.devRef .tc main_v1))
      shapeCasts_S6144x128x128_S16x12x32x128x128 = _
  rw [hw, V_main_v0]
  exact split_stackNorm_merge _ _ _

/-- THE KERNEL'S RUN: every weakly fair execution terminates with the result at every slab of the batch normalised and the
    argument unchanged. -/
theorem run : θ_run defs (onTc (τ := τ) (main (F := Ideal))) ⟨m, fun _ => 0, ρ⟩ fun r => ∀ c : Dev nD,
      r.2.mem ((c.tc : Thread nD τ).loc main_v2) = batchNorm (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.KValue

end
-- ==== Proof.RefValue.lean ====
/-
  The reference's result, read index by index: every slab of the batch normalised.

  The reference takes the minimum and the maximum of each slab in ONE reduction over the last two axes of the
  [16, 12, 32, 128, 128] array, from `+∞` and `-∞`. Read by its lower bounds, the minimum at (a, b, c) is the greatest lower
  bound of the entries whose first three coordinates are (a, b, c): the slab's smallest entry (`ref_min`); dually the maximum
  (`ref_max`). The rest of the reference is pointwise: the two extrema are broadcast back over the slab (through shapes with
  unit axes), and the entry is `(x - lo) / ((hi - lo) + ε)` with the same word for `ε` that the kernel carries
  (`ref_eq_batchNorm`).
-/
import proofs.«168472_j51969104282122_1_alg».proof.Proof.Gen.ReferenceIdeal.Read
import proofs.«168472_j51969104282122_1_alg».proof.Proof.LibExtrema
import proofs.«168472_j51969104282122_1_alg».proof.Proof.SlabSpec

noncomputable section

namespace Cert.ReferenceIdeal.RefValue

open Cert.ReferenceIdeal Cert.ReferenceIdeal.Gen Cert.ReferenceIdeal.Read
open Idealize.ShloMosaic Idealize.ShloMosaic.ValueIdx SlabNorm

/-- Dropping the last two coordinates of an entry of the batch keeps its slab. -/
theorem drop_slab (h : S16x12x32x128x128.ReducesTo [3, 4] S16x12x32) (a : Fin 16) (b : Fin 12) (c : Fin 32) (r q : Fin 128) :
    h.drop (ix5 a b c r q) = ix3 a b c :=
  (Extrema.dropTo_eq_iff h _ _).2 fun d => match d with
    | ⟨0, _⟩ => h.drop_apply_val_of_eq (ix5 a b c r q) 0 0
    | ⟨1, _⟩ => h.drop_apply_val_of_eq (ix5 a b c r q) 1 1
    | ⟨2, _⟩ => h.drop_apply_val_of_eq (ix5 a b c r q) 2 2

/-- An entry whose dropped index is (a, b, c) lies in slab (a, b, c). -/
theorem of_drop_slab (h : S16x12x32x128x128.ReducesTo [3, 4] S16x12x32) (a' : Fin 16) (b' : Fin 12) (c' : Fin 32) (r q : Fin 128)
    (a : Fin 16) (b : Fin 12) (c : Fin 32) (e : h.drop (ix5 a' b' c' r q) = ix3 a b c) : a' = a ∧ b' = b ∧ c' = c := by
  have e0 : (h.drop (ix5 a' b' c' r q) 0 : Nat) = ((ix5 a' b' c' r q) 0 : Nat) := h.drop_apply_val_of_eq _ 0 0
  have e1 : (h.drop (ix5 a' b' c' r q) 1 : Nat) = ((ix5 a' b' c' r q) 1 : Nat) := h.drop_apply_val_of_eq _ 1 1
  have e2 : (h.drop (ix5 a' b' c' r q) 2 : Nat) = ((ix5 a' b' c' r q) 2 : Nat) := h.drop_apply_val_of_eq _ 2 2
  rw [e] at e0 e1 e2
  exact ⟨Fin.ext e0.symm, Fin.ext e1.symm, Fin.ext e2.symm⟩

/-- The reference's minimum at (a, b, c) is the smallest entry of that slab. -/
theorem ref_min (X : Batch.Idx → EReal) (a : Fin 16) (b : Fin 12) (c : Fin 32) :
    val_main_v0 (F := Ideal) X (ix3 a b c) = batchMin X a b c := by
  unfold val_main_v0
  refine eq_of_forall_le_iff fun d => ?_
  refine (Extrema.le_hostReduce_min_iff (φ := .f32) X _ reducesTo_S16x12x32x128x128_S16x12x32_d3_4 h_S_ Extrema.ofBits_posInf (ix3 a b c) d).trans ?_
  unfold batchMin
  simp only [le_iInf_iff]
  constructor
  · intro H r q
    exact H (ix5 a b c r q) (drop_slab _ a b c r q)
  · intro H i hi
    obtain ⟨a', b', c', r, q, rfl⟩ : ∃ (a' : Fin 16) (b' : Fin 12) (c' : Fin 32) (r q : Fin 128), i = ix5 a' b' c' r q :=
      ⟨i 0, i 1, i 2, i 3, i 4, eq_ix5 i⟩
    obtain ⟨rfl, rfl, rfl⟩ := of_drop_slab _ a' b' c' r q a b c hi
    exact H r q

/-- The reference's maximum at (a, b, c) is the largest entry of that slab. -/
theorem ref_max (X : Batch.Idx → EReal) (a : Fin 16) (b : Fin 12) (c : Fin 32) :
    val_main_v2 (F := Ideal) X (ix3 a b c) = batchMax X a b c := by
  unfold val_main_v2
  refine eq_of_forall_ge_iff fun d => ?_
  refine (Extrema.hostReduce_max_le_iff (φ := .f32) X _ reducesTo_S16x12x32x128x128_S16x12x32_d3_4 h_S_ Extrema.ofBits_negInf (ix3 a b c) d).trans ?_
  unfold batchMax
  simp only [iSup_le_iff]
  constructor
  · intro H r q
    exact H (ix5 a b c r q) (drop_slab _ a b c r q)
  · intro H i hi
    obtain ⟨a', b', c', r, q, rfl⟩ : ∃ (a' : Fin 16) (b' : Fin 12) (c' : Fin 32) (r q : Fin 128), i = ix5 a' b' c' r q :=
      ⟨i 0, i 1, i 2, i 3, i 4, eq_ix5 i⟩
    obtain ⟨rfl, rfl, rfl⟩ := of_drop_slab _ a' b' c' r q a b c hi
    exact H r q

/-- The broadcasts of the minimum (under the numerator and under the denominator) read every entry of slab (a, b, c) at that
    slab's number, -/
theorem slab_of_entry (a : Fin 16) (b : Fin 12) (c : Fin 32) (r q : Fin 128) :
    idx_main_v1 (idx_main_v4 (ix5 a b c r q)) = ix3 a b c :=
  (eq_ix3 (idx_main_v1 (idx_main_v4 (ix5 a b c r q)))).trans rfl

/-- and so does the broadcast of the maximum. -/
theorem slab_of_entry_max (a : Fin 16) (b : Fin 12) (c : Fin 32) (r q : Fin 128) :
    idx_main_v3 (idx_main_v9 (ix5 a b c r q)) = ix3 a b c :=
  (eq_ix3 (idx_main_v3 (idx_main_v9 (ix5 a b c r q)))).trans rfl

/-- THE REFERENCE'S RESULT is every slab of the batch normalised. -/
theorem ref_eq_batchNorm (X : Batch.Idx → EReal) : val_main_v10 (F := Ideal) X = batchNorm X := by
  funext i
  obtain ⟨a, b, c, r, q, rfl⟩ : ∃ (a : Fin 16) (b : Fin 12) (c : Fin 32) (r q : Fin 128), i = ix5 a b c r q :=
    ⟨i 0, i 1, i 2, i 3, i 4, eq_ix5 i⟩
  rw [val_main_v10_apply, val_main_v5_apply, val_main_v4_apply, val_main_v1_apply, val_main_v9_apply, val_main_v8_apply,
    val_main_v6_apply, val_main_v3_apply, val_main_v1_apply, val_main_v7_apply, val_main_cst_1_apply,
    slab_of_entry, slab_of_entry_max, ref_min, ref_max, batchNorm_apply]
  rfl

end Cert.ReferenceIdeal.RefValue

end
-- ==== Proof.lean ====
/-
  Min-max normalisation of 128 × 128 slabs: the kernel against its reference, over the extended reals.

  Both programs send every entry `x` of every 128 × 128 slab of a [16, 12, 32, 128, 128] array to

      (x - lo) / ((hi - lo) + ε),      lo, hi = the slab's smallest and largest entry,  ε = the binary32 number nearest 1e-8.

  The reference takes `lo` and `hi` in one reduction over the last two axes. The kernel merges the three leading axes
  (6144 slabs), walks the slabs in 48 blocks of 128, and inside a block takes the minimum over the lanes and then over the rows
  (and the maximum likewise) before normalising; the result is split back into five axes. On the extended reals a minimum
  of row minima is the slab's minimum, the reduction's starting value `+∞` (`-∞` for the maximum) changes nothing, a slab's
  extrema do not depend on which block holds it, and the two re-layings cancel; the pointwise part is the same expression
  with the same word for `ε` on both sides. No law that fails at infinities is used, so the precondition (finite inputs) is
  never opened.

  * Proof/LibExtrema.lean — a reduction's minimum (maximum) by its lower (upper) bounds;
  * Proof/SlabSpec.lean — the specification on a stack and on the batch, and the two re-layings between them;
  * Proof/BlockBody.lean — the body's arithmetic on a block is the block normalised;
  * Proof/KernelValue.lean — the kernel's run ends at the batch normalised;
  * Proof/RefValue.lean — the reference's result is the batch normalised.

  The frames of the two kernel programs are the generated ones; the reference's is its generated run with the result dropped.
  The idealization rewrote nothing, so `preserves` is `True`.
-/
import proofs.«168472_j51969104282122_1_alg».proof.Defs
import proofs.«168472_j51969104282122_1_alg».proof.Proof.Gen.Kernel
import proofs.«168472_j51969104282122_1_alg».proof.Proof.Gen.Kernel.Frame
import proofs.«168472_j51969104282122_1_alg».proof.Proof.Gen.KernelIdeal
import proofs.«168472_j51969104282122_1_alg».proof.Proof.Gen.KernelIdeal.Frame
import proofs.«168472_j51969104282122_1_alg».proof.Proof.Gen.ReferenceIdeal
import proofs.«168472_j51969104282122_1_alg».proof.Proof.Gen.ReferenceIdeal.Run
import proofs.«168472_j51969104282122_1_alg».proof.Proof.Gen.ReferenceIdeal.Read
import proofs.«168472_j51969104282122_1_alg».proof.Proof.Gen.Pre_finite_inputs
import proofs.«168472_j51969104282122_1_alg».proof.Proof.KernelValue
import proofs.«168472_j51969104282122_1_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at every slab of the batch normalised, of arguments that agree. -/
theorem algebraic : Cert.algebraic_KernelIdeal_ReferenceIdeal := by
  intro m ρ m' ρ' _ hagree
  refine ⟨fun c => SlabNorm.batchNorm (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨?_, (h c).2⟩)
    (Cert.ReferenceIdeal.Value.run (F := Ideal) m' ρ')
  exact (h c).1.trans ((Cert.ReferenceIdeal.Read.val_main_v10_eq _).trans
    ((Cert.ReferenceIdeal.RefValue.ref_eq_batchNorm _).trans (congrArg SlabNorm.batchNorm (hagree c))))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
